-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x4 : Shape := ⟨3, ![32, 2048, 4]⟩
abbrev S64x512 : Shape := ⟨2, ![64, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S32x2048x4 : S_.BroadcastsInDim S32x2048x4 (![] : Fin 0 → Fin S32x2048x4.rank)
  reducesTo_S32x2048x4_S_d0_1_2 : S32x2048x4.ReducesTo [0, 1, 2] S_

variable [Facts]

def fn {F : FTy → Type} [FloatOps F] (main_arg0 : IVec S32x2048x4 32) (main_arg1 : FVec F S64x512 .f32) : IVec S_ 1 :=
  let main_v0 : FVec F S64x512 .f32 := Host.absf main_arg1
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_c_0 : IVec S_ 32 := constantI S_ 32 0#32
  let main_v4 : IVec S32x2048x4 32 := broadcastInDim S32x2048x4 ![] bcast_S_S32x2048x4 main_c_0
  let main_v5 : IVec S32x2048x4 1 := cmpi .sge main_arg0 main_v4
  let main_c_1 : IVec S_ 32 := constantI S_ 32 64#32
  let main_v6 : IVec S32x2048x4 32 := broadcastInDim S32x2048x4 ![] bcast_S_S32x2048x4 main_c_1
  let main_v7 : IVec S32x2048x4 1 := cmpi .slt main_arg0 main_v6
  let main_v8 : IVec S32x2048x4 1 := andi main_v5 main_v7
  let main_c_2 : IVec S_ 1 := constantI S_ 1 1#1
  let main_v9 : IVec S_ 1 := (fun x v => Host.reduce IntOp.andi x v reducesTo_S32x2048x4_S_d0_1_2 h_S_) main_v8 main_c_2
  let main_v10 : IVec S_ 1 := andi main_v3 main_v9
  main_v10
-- ==== Kernel.lean ====
abbrev S32x2048x4 : Shape := ⟨3, ![32, 2048, 4]⟩
abbrev S64x512 : Shape := ⟨2, ![64, 512]⟩
abbrev S65536x4 : Shape := ⟨2, ![65536, 4]⟩
abbrev S_ : Shape := ⟨0, ![]⟩
abbrev S1 : Shape := ⟨1, ![1]⟩
abbrev S512 : Shape := ⟨1, ![512]⟩
abbrev S65536x512 : Shape := ⟨2, ![65536, 512]⟩
abbrev S4096x4 : Shape := ⟨2, ![4096, 4]⟩
abbrev S4096x512 : Shape := ⟨2, ![4096, 512]⟩
abbrev S4096x64 : Shape := ⟨2, ![4096, 64]⟩
abbrev S4096x1 : Shape := ⟨2, ![4096, 1]⟩
abbrev S32x2048x512 : Shape := ⟨3, ![32, 2048, 512]⟩

abbrev nBuf : Space → Nat
  | .hbm => 11
  | .vmem => 5
  | .smem => 0
  | _ => 0

abbrev bufTy : (tb : Table) → Fin (tcTables nBuf tb) → BufTy
  | .hbm, ⟨0, _⟩ => ⟨S32x2048x4, .i32⟩
  | .hbm, ⟨1, _⟩ => ⟨S64x512, .f32⟩
  | .hbm, ⟨2, _⟩ => ⟨S65536x4, .i32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S512, .f32⟩
  | .hbm, ⟨7, _⟩ => ⟨S64x512, .f32⟩
  | .hbm, ⟨8, _⟩ => ⟨S64x512, .bf16⟩
  | .hbm, ⟨9, _⟩ => ⟨S65536x512, .f32⟩
  | .hbm, ⟨10, _⟩ => ⟨S32x2048x512, .f32⟩
  | .local _ .vmem, ⟨0, _⟩ => ⟨S4096x4, .i32⟩
  | .local _ .vmem, ⟨1, _⟩ => ⟨S4096x4, .i32⟩
  | .local _ .vmem, ⟨2, _⟩ => ⟨S64x512, .bf16⟩
  | .local _ .vmem, ⟨3, _⟩ => ⟨S4096x512, .f32⟩
  | .local _ .vmem, ⟨4, _⟩ => ⟨S4096x512, .f32⟩
  | _, _ => ⟨S32x2048x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x2048x4_S65536x4 : S32x2048x4.ShapeCasts S65536x4
  bcast_S_S1 : S_.BroadcastsInDim S1 (![] : Fin 0 → Fin S1.rank)
  bcast_S_S512 : S_.BroadcastsInDim S512 (![] : Fin 0 → Fin S512.rank)
  bitsLt_bf16_f32 : FTy.bits .bf16 < FTy.bits .f32
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  iota_S4096x64_d1_w32 : S4096x64.Iotas .tc 32 [1]
  slices_S4096x4_o0_0_S4096x1 : S4096x4.Slices ![0, 0] S4096x1
  broadcasts_S4096x1_S4096x64 : S4096x1.Broadcasts S4096x64
  natLt_1_32 : 1 < 32
  slices_S4096x4_o0_1_S4096x1 : S4096x4.Slices ![0, 1] S4096x1
  slices_S4096x4_o0_2_S4096x1 : S4096x4.Slices ![0, 2] S4096x1
  slices_S4096x4_o0_3_S4096x1 : S4096x4.Slices ![0, 3] S4096x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S4096x512_S4096x512_0_0 : ∀ a, (![0, 0] : Fin 2 → Nat) a + S4096x512.size a ≤ S4096x512.size a
  h_S4096x512 : 0 < S4096x512.numel
  shapeCasts_S65536x512_S32x2048x512 : S65536x512.ShapeCasts S32x2048x512
  scatter_S64x512_S1_S512_0_0_0_0_wf : ScatterDims.WF S64x512 S1 S512 [0] [0] [0] 0
  dot_S4096x64_S64x512_S4096x512_1_0_0_1_n_n_wf : DotDims.WF S4096x64 S64x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S65536x4.size a
  hwx0_0 : ∀ i : grid0.Coords, EltTy.bits .i32 = 32 ∨ (Rect.block (s := S65536x4) S4096x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .bf16 = 32 ∨ (Rect.block (s := S64x512) S64x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S65536x512.size a
  hwx0_2 : ∀ i : grid0.Coords, EltTy.bits .f32 = 32 ∨ (Rect.block (s := S65536x512) S4096x512.size (cc0_transform_2 i) (hinb0_2 i)).WholeWords (EltTy.packing .f32)

variable [Facts₀]

def scatter_S64x512_S1_S512_0_0_0_0 : ScatterDims S64x512 S1 S512 where
  updateWindowDims := [0]
  insertedWindowDims := [0]
  scatterDimsToOperandDims := [0]
  indexVectorDim := 0
  wf := scatter_S64x512_S1_S512_0_0_0_0_wf
def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf

abbrev win0_0 : Pipeline.Window sig grid0 :=
  Pipeline.Window.ofSpec (Memref.whole main_v0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x4 : Shape := ⟨3, ![32, 2048, 4]⟩
abbrev S64x512 : Shape := ⟨2, ![64, 512]⟩
abbrev S_ : Shape := ⟨0, ![]⟩
abbrev S1 : Shape := ⟨1, ![1]⟩
abbrev S512 : Shape := ⟨1, ![512]⟩
abbrev S32x2048x4x1 : Shape := ⟨4, ![32, 2048, 4, 1]⟩
abbrev S32x2048x4x512 : Shape := ⟨4, ![32, 2048, 4, 512]⟩
abbrev S32x2048x512 : Shape := ⟨3, ![32, 2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S32x2048x4, .i32⟩
  | .hbm, ⟨1, _⟩ => ⟨S64x512, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S512, .f32⟩
  | .hbm, ⟨6, _⟩ => ⟨S64x512, .f32⟩
  | .hbm, ⟨7, _⟩ => ⟨S_, .i32⟩
  | .hbm, ⟨8, _⟩ => ⟨S32x2048x4, .i32⟩
  | .hbm, ⟨9, _⟩ => ⟨S32x2048x4, .i1⟩
  | .hbm, ⟨10, _⟩ => ⟨S_, .i32⟩
  | .hbm, ⟨11, _⟩ => ⟨S32x2048x4, .i32⟩
  | .hbm, ⟨12, _⟩ => ⟨S32x2048x4, .i32⟩
  | .hbm, ⟨13, _⟩ => ⟨S32x2048x4, .i32⟩
  | .hbm, ⟨14, _⟩ => ⟨S32x2048x4x1, .i32⟩
  | .hbm, ⟨15, _⟩ => ⟨S32x2048x4x512, .f32⟩
  | .hbm, ⟨16, _⟩ => ⟨S_, .f32⟩
  | .hbm, ⟨17, _⟩ => ⟨S32x2048x512, .f32⟩
  | _, _ => ⟨S32x2048x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S512 : S_.BroadcastsInDim S512 (![] : Fin 0 → Fin S512.rank)
  bcast_S_S32x2048x4 : S_.BroadcastsInDim S32x2048x4 (![] : Fin 0 → Fin S32x2048x4.rank)
  bcast_S32x2048x4_S32x2048x4x1_0_1_2 : S32x2048x4.BroadcastsInDim S32x2048x4x1 (![0, 1, 2] : Fin 3 → Fin S32x2048x4x1.rank)
  reducesTo_S32x2048x4x512_S32x2048x512_d2 : S32x2048x4x512.ReducesTo [2] S32x2048x512
  h_S_ : 0 < S_.numel
  scatter_S64x512_S1_S512_0_0_0_0_wf : ScatterDims.WF S64x512 S1 S512 [0] [0] [0] 0
  gather_S64x512_S32x2048x4x1_S32x2048x4x512_3_0_n_n_0_3_1512_wf : GatherDims.WF S64x512 S32x2048x4x1 S32x2048x4x512 [3] [0] [] [0] [] 3 ![1, 512]

variable [Facts₀]

def scatter_S64x512_S1_S512_0_0_0_0 : ScatterDims S64x512 S1 S512 where
  updateWindowDims := [0]
  insertedWindowDims := [0]
  scatterDimsToOperandDims := [0]
  indexVectorDim := 0
  wf := scatter_S64x512_S1_S512_0_0_0_0_wf
def gather_S64x512_S32x2048x4x1_S32x2048x4x512_3_0_n_n_0_3_1512 : GatherDims S64x512 S32x2048x4x1 S32x2048x4x512 where
  offsetDims := [3]
  collapsedSliceDims := [0]
  operandBatchingDims := []
  startIndicesBatchingDims := []
  startIndexMap := [0]
  indexVectorDim := 3
  sliceSizes := ![1, 512]
  wf := gather_S64x512_S32x2048x4x1_S32x2048x4x512_3_0_n_n_0_3_1512_wf

class Facts : Prop extends Facts₀ where

variable [Facts]
-- ==== Proof.IndexRange.lean ====
/-
  What the precondition says of the index words.

  The precondition is the conjunction of two "for all entries" tests reduced to one bit each: the table's entries are
  finite, and every index word `w` passes `0 ≤ w` and `w < 64` as SIGNED integers. From the whole predicate being one,
  the second test gives, entry by entry, that the word read signed lies in [0, 64): the range of the table's 64 rows.
-/
import proofs.«411611_j51067161149885_1_alg».proof.Proof.Gen.Pre_finite_inputs
import Idealize.ShloMosaic.Lib.ReduceAll
import Idealize.ShloMosaic.Lib.ValueIdx

namespace Cert.IndexRange

open Idealize.ShloMosaic Cert.Pre_finite_inputs Cert.Pre_finite_inputs.Gen

variable {F : FTy → Type} [FloatOps F]

/-- The scalar shape has one index. -/
instance : Subsingleton S_.Idx := ⟨fun a b => funext fun d => d.elim0⟩

/-- Under the precondition every index word, read signed, is a row number of the table. -/
theorem range_of_pre (p : IVec S32x2048x4 32) (T : FVec F S64x512 .f32)
    (h : fn (F := F) p T = fun _ => 1#1) (i : S32x2048x4.Idx) :
    0 ≤ (p i).toInt ∧ (p i).toInt < 64 := by
  have h0 := congrFun h ValueIdx.ix0
  dsimp only [fn] at h0
  obtain ⟨-, h9⟩ := IntOp.andi_eq_one.1 h0
  have h8 := Host.reduce_andi_all _ _ _ _ _ h9 i
  obtain ⟨h5, h7⟩ := IntOp.andi_eq_one.1 h8
  exact ⟨IntOp.cmpi_sge.1 h5, IntOp.cmpi_slt.1 h7⟩

end Cert.IndexRange
-- ==== Proof.BagSum.lean ====
/-
  The specification both programs meet: the sum of a bag of table rows.

  Every token (batch `b`, position `s`) carries four index words. A word names a row of the 64-row table: read as a
  signed integer and clamped into [0, 63] (for a word already in range, the word itself). The result at
  `(b, s, d)` is a zero start plus the sum, over the token's four words, of the named row's entry in column `d`.
  The table is whatever 64 × 512 array of extended reals the programs look rows up in (for both, the argument table
  with its row 0 overwritten by zeros); nothing here depends on its contents.
-/
import Idealize.ShloMosaic.Lib.ValueIdx
import Idealize.ShloMosaic.PureOps.Ideal

noncomputable section

open scoped BigOperators

namespace Cert.BagSum

open Idealize.ShloMosaic Idealize.ShloMosaic.ValueIdx

/-- The table row an index word names: the word read signed, clamped into the table's 64 rows. -/
def row (w : BitVec 32) : Fin 64 := ⟨min w.toInt.toNat 63, by omega⟩

/-- A word in range names the row of its own value. -/
theorem row_val {w : BitVec 32} (h0 : 0 ≤ w.toInt) (h1 : w.toInt < 64) : ((row w).val : Int) = w.toInt := by
  unfold row
  show ((min w.toInt.toNat 63 : Nat) : Int) = w.toInt
  omega

/-- THE RESULT: at `(b, s, d)`, zero plus the four named rows' entries in column `d`. -/
def bagSum (p : (⟨3, ![32, 2048, 4]⟩ : Shape).Idx → BitVec 32) (tz : (⟨2, ![64, 512]⟩ : Shape).Idx → EReal) :
    (⟨3, ![32, 2048, 512]⟩ : Shape).Idx → EReal :=
  fun i => 0 + ∑ k : Fin 4, tz (ix2 (row (p (ix3 (i 0) (i 1) k))) (i 2))

end Cert.BagSum

end
-- ==== Proof.RefValue.lean ====
/-
  The reference's result is the bag sum.

  The reference wraps a negative index word by adding 64 (NumPy's convention), looks the word's row up in the zeroed
  table with a gather whose start index is clamped into the table, and adds the four looked-up rows onto a zero start.
  For a word in [0, 64) the wrap leaves it alone, so each looked-up entry is the entry of the row the word names.
-/
import proofs.«411611_j51067161149885_1_alg».proof.Proof.Gen.ReferenceIdeal.Read
import proofs.«411611_j51067161149885_1_alg».proof.Proof.BagSum
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.BagSum

local notation "gd" => gather_S64x512_S32x2048x4x1_S32x2048x4x512_3_0_n_n_0_3_1512

/-- The gather at `(b, s, k, d)`: the operand's entry in column `d` of the row that the start index at `(b, s, k, 0)`
    names (read signed, clamped into the 64 rows). -/
theorem gather_row {α : Type} (x : S64x512.Idx → α) (idx : IVec S32x2048x4x1 32) (j : S32x2048x4x512.Idx) :
    Host.gather gd x idx j = x (ix2 (row (idx (ix4 (j 0) (j 1) (j 2) (0 : Fin 1)))) (j 3)) := by
  unfold Host.gather
  congr 1
  funext a
  refine Fin.ext ?_
  match a with
  | ⟨0, _⟩ =>
    show GatherDims.start gd j idx 0 + GatherDims.batchCoord gd j 0 + GatherDims.offCoord gd j 0 = _
    rw [GatherDims.batchCoord_eq_zero gd j 0 (by decide), GatherDims.offCoord_eq_zero gd j 0 (by decide)]
    simp only [Nat.add_zero]
    unfold GatherDims.start
    rw [dif_pos (by decide : (0 : Fin 2) ∈ GatherDims.startIndexMap gd)]
    have hsi : GatherDims.siIdx gd j ⟨List.idxOf (0 : Fin 2) (GatherDims.startIndexMap gd),
        List.idxOf_lt_length_iff.2 (by decide)⟩ = ix4 (j 0) (j 1) (j 2) (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show GatherDims.start gd j idx 1 + GatherDims.batchCoord gd j 1 + GatherDims.offCoord gd j 1 = _
    rw [GatherDims.batchCoord_eq_zero gd j 1 (by decide)]
    unfold GatherDims.start GatherDims.offCoord
    rw [dif_neg (by decide : (1 : Fin 2) ∉ GatherDims.startIndexMap gd),
      dif_pos (by decide : (1 : Fin 2) ∈ GatherDims.sKept gd)]
    simp only [Nat.zero_add, Nat.add_zero]
    rfl

variable {F : FTy → Type} [FloatOps F]

/-- A non-negative word is not wrapped: the select between `w + 64` and `w` on the bit `w < 0` is `w`. -/
theorem wrap_id (w : BitVec 32) (h0 : 0 ≤ w.toInt) :
    Scalar.select (IntOp.cmpi .slt w 0#32) (IntOp.addi w 64#32) w = w := by
  have hb : IntOp.cmpi .slt w 0#32 = 0#1 := eq_zero_of_ne_one fun h => by
    have h' := IntOp.cmpi_slt.1 h
    have hz : (0#32 : BitVec 32).toInt = 0 := by decide
    omega
  rw [hb, select_zero]

/-- The start index the gather reads for `(b, s, k)` is the argument's word there, when that word is not negative. -/
theorem start_word (x0 : (⟨S32x2048x4, .i32⟩ : BufTy).Contents (Elt F))
    (hr : ∀ i, 0 ≤ (x0 i).toInt ∧ (x0 i).toInt < 64) (a : Fin 32) (b : Fin 2048) (k : Fin 4) :
    val_main_v8 (F := F) x0 (ix4 a b k (0 : Fin 1)) = x0 (ix3 a b k) := by
  rw [val_main_v8_apply]
  have e : idx_main_v8 (ix4 a b k (0 : Fin 1)) = ix3 a b k :=
    funext fun d => Fin.ext (by match d with | ⟨0, _⟩ => rfl | ⟨1, _⟩ => rfl | ⟨2, _⟩ => rfl)
  rw [e, val_main_v7_apply, val_main_v4_apply, val_main_v6_apply, val_main_v3_apply, val_main_v5_apply,
    val_main_c_0_apply, val_main_c_1_apply]
  exact wrap_id _ (hr _).1

/-- THE REFERENCE IS THE BAG SUM of its index words over its zeroed table (the scatter stage), for words in range. -/
theorem ref_eq_bagSum (x0 : (⟨S32x2048x4, .i32⟩ : BufTy).Contents (Elt Ideal))
    (x1 : (⟨S64x512, .f32⟩ : BufTy).Contents (Elt Ideal))
    (hr : ∀ i, 0 ≤ (x0 i).toInt ∧ (x0 i).toInt < 64) :
    val_main_v10 (F := Ideal) x0 x1 = bagSum x0 (val_main_v2 (F := Ideal) x1) := by
  funext i
  rw [val_main_v10_apply]
  unfold bagSum
  refine congrArg₂ (· + ·) ?_ (Finset.sum_congr rfl fun k _ => ?_)
  · show Ideal.ofBits .f32 0x00000000#32 = 0
    exact Ideal.ofBits_zero_f32
  · unfold val_main_v9
    rw [gather_row]
    show val_main_v2 (F := Ideal) x1 (ix2 (row (val_main_v8 (F := Ideal) x0 (ix4 (i 0) (i 1) k (0 : Fin 1)))) (i 2)) = _
    exact congrArg (fun w => val_main_v2 (F := Ideal) x1 (ix2 (row w) (i 2))) (start_word x0 hr (i 0) (i 1) k)

end Cert.ReferenceIdeal.RefValue

end
-- ==== Proof.KernelPayload.lean ====
/-
  The kernel body's stored value, entry by entry.

  For a block of 4096 tokens with four index words each, the body builds a 4096 × 64 array of COUNTS — entry
  `(p, v)` is a zero start plus, for each of token `p`'s four words, one if the word equals the lane number `v` and
  zero otherwise — and multiplies it into the 64 × 512 table block on the matrix unit from a zero accumulator. At
  the ideal instance the narrowing to bf16 on both operands is the identity and the product is the plain sum over the
  64 lanes, so entry `(p, q)` of the stored block is the sum over `v` of count `(p, v)` times table entry `(v, q)`.
-/
import proofs.«411611_j51067161149885_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The product's operand indices, coordinate by coordinate -/

theorem lhs_0 (j : S4096x512.Idx) (k : dot_S4096x64_S64x512_S4096x512_1_0_0_1_n_n.contr.Idx) :
    (dot_S4096x64_S64x512_S4096x512_1_0_0_1_n_n.lhsIdx j k 0 : ℕ) = j 0 := by
  simp [DotDims.lhsIdx, dot_S4096x64_S64x512_S4096x512_1_0_0_1_n_n]; rfl
theorem lhs_1 (j : S4096x512.Idx) (k : dot_S4096x64_S64x512_S4096x512_1_0_0_1_n_n.contr.Idx) :
    (dot_S4096x64_S64x512_S4096x512_1_0_0_1_n_n.lhsIdx j k 1 : ℕ) = k ⟨0, by decide⟩ :=
  dot_S4096x64_S64x512_S4096x512_1_0_0_1_n_n.lhsIdx_val_of_single rfl j k
theorem rhs_0 (j : S4096x512.Idx) (k : dot_S4096x64_S64x512_S4096x512_1_0_0_1_n_n.contr.Idx) :
    (dot_S4096x64_S64x512_S4096x512_1_0_0_1_n_n.rhsIdx j k 0 : ℕ) = k ⟨0, by decide⟩ :=
  dot_S4096x64_S64x512_S4096x512_1_0_0_1_n_n.rhsIdx_val_of_single rfl j k
theorem rhs_1 (j : S4096x512.Idx) (k : dot_S4096x64_S64x512_S4096x512_1_0_0_1_n_n.contr.Idx) :
    (dot_S4096x64_S64x512_S4096x512_1_0_0_1_n_n.rhsIdx j k 1 : ℕ) = j 1 := by
  simp [DotDims.rhsIdx, dot_S4096x64_S64x512_S4096x512_1_0_0_1_n_n]; rfl

/-- The contraction runs over the 64 lanes. -/
abbrev lanes : dot_S4096x64_S64x512_S4096x512_1_0_0_1_n_n.contr.Idx ≃ Fin 64 :=
  contrEquiv1 dot_S4096x64_S64x512_S4096x512_1_0_0_1_n_n 64 rfl rfl

/-- At output entry `(p, q)` and lane `v` the left operand is read at `(p, v)` … -/
theorem lhsIdx_eq (p : Fin 4096) (q : Fin 512) (v : Fin 64) :
    dot_S4096x64_S64x512_S4096x512_1_0_0_1_n_n.lhsIdx (ix2 p q) (lanes.symm v) = ix2 p v :=
  Shape.idx_ext₂ (lhs_0 _ _) ((lhs_1 _ _).trans (contrEquiv1_symm_val _ 64 rfl rfl v))
/-- … and the right operand at `(v, q)`. -/
theorem rhsIdx_eq (p : Fin 4096) (q : Fin 512) (v : Fin 64) :
    dot_S4096x64_S64x512_S4096x512_1_0_0_1_n_n.rhsIdx (ix2 p q) (lanes.symm v) = ix2 v q :=
  Shape.idx_ext₂ ((rhs_0 _ _).trans (contrEquiv1_symm_val _ 64 rfl rfl v)) (rhs_1 _ _)

/-! ## The layout operations of the count, read at `(p, v)` -/

/-- A column broadcast along the lanes reads the column's entry of the same row. -/
theorem bcast_col (x : IVec S4096x1 32) (h : S4096x1.Broadcasts S4096x64) (p : Fin 4096) (v : Fin 64) :
    broadcastTo S4096x64 x h (ix2 p v) = x (ix2 p (0 : Fin 1)) :=
  broadcastTo_apply x h (ix2 p v) (ix2 p (0 : Fin 1)) (fun a => by
    match a with
    | ⟨0, _⟩ => show p.val = if (4096 : Nat) = 1 then 0 else p.val; rw [if_neg (by decide)]
    | ⟨1, _⟩ => show (0 : Nat) = if (1 : Nat) = 1 then 0 else v.val; rw [if_pos rfl])

/-- Column `o` of the words, as a one-column array, reads the word `(p, o)`. -/
theorem slice_col (x : IVec S4096x4 32) (o : Nat) (kk : Fin 4) (hk : kk.val = o) (h : S4096x4.Slices ![0, o] S4096x1)
    (p : Fin 4096) : extractStridedSlice S4096x1 ![0, o] x h (ix2 p (0 : Fin 1)) = x (ix2 p kk) :=
  extractStridedSlice_apply ![0, o] x h (ix2 p (0 : Fin 1)) (ix2 p kk) (fun a => by
    match a with
    | ⟨0, _⟩ => show p.val = 0 + p.val; omega
    | ⟨1, _⟩ => show kk.val = o + 0; omega)

/-- The lane number. -/
theorem lane (h : S4096x64.Iotas .tc 32 [1]) (p : Fin 4096) (v : Fin 64) :
    iota .tc S4096x64 32 [1] h (ix2 p v) = BitVec.ofNat 32 v.val :=
  iota_single_apply .tc S4096x64 32 1 h (ix2 p v)

/-- The indicator of two words being equal, widened and converted: one or zero. -/
theorem onehot_word (a b : BitVec 32) :
    FloatOps.sitofp (F := Ideal) .f32 ((IntOp.cmpi .eq a b).setWidth 32) = if a = b then (1 : EReal) else 0 := by
  show (((((IntOp.cmpi .eq a b).setWidth 32).toInt : ℝ)) : EReal) = _
  by_cases h : a = b
  · rw [if_pos h, IntOp.cmpi_eq.2 h]
    have e : ((1#1 : BitVec 1).setWidth 32).toInt = 1 := by decide
    rw [e]; simp
  · rw [if_neg h, eq_zero_of_ne_one (fun hc => h (IntOp.cmpi_eq.1 hc))]
    have e : ((0#1 : BitVec 1).setWidth 32).toInt = 0 := by decide
    rw [e]; simp

/-- One indicator column of the count at `(p, v)`: does token `p`'s word number `kk` equal lane `v`? -/
theorem onehot_apply (x : IVec S4096x4 32) (o : Nat) (kk : Fin 4) (hk : kk.val = o) (hs : S4096x4.Slices ![0, o] S4096x1)
    (hb : S4096x1.Broadcasts S4096x64) (hi : S4096x64.Iotas .tc 32 [1]) (hw : 1 < 32) (p : Fin 4096) (v : Fin 64) :
    (sitofp .f32 (extui 32 (cmpi .eq (broadcastTo S4096x64 (extractStridedSlice S4096x1 ![0, o] x hs) hb)
        (iota .tc S4096x64 32 [1] hi)) hw) : FVec Ideal S4096x64 .f32) (ix2 p v)
      = if x (ix2 p kk) = BitVec.ofNat 32 v.val then (1 : EReal) else 0 := by
  show FloatOps.sitofp (F := Ideal) .f32 ((IntOp.cmpi .eq (broadcastTo S4096x64 (extractStridedSlice S4096x1 ![0, o] x hs) hb (ix2 p v))
      (iota .tc S4096x64 32 [1] hi (ix2 p v))).setWidth 32) = _
  rw [bcast_col, slice_col x o kk hk, lane, onehot_word]

/-! ## The stored value -/

/-- Token `p`'s count at lane `v`: a zero start plus one for each of its four words that equals the lane number. -/
def count (x0 : IVec S4096x4 32) (p : Fin 4096) (v : Fin 64) : EReal :=
  (((0 + (if x0 (ix2 p (0 : Fin 4)) = BitVec.ofNat 32 v.val then (1 : EReal) else 0))
      + (if x0 (ix2 p (1 : Fin 4)) = BitVec.ofNat 32 v.val then (1 : EReal) else 0))
      + (if x0 (ix2 p (2 : Fin 4)) = BitVec.ofNat 32 v.val then (1 : EReal) else 0))
      + (if x0 (ix2 p (3 : Fin 4)) = BitVec.ofNat 32 v.val then (1 : EReal) else 0)

/-- THE STORED BLOCK at `(p, q)`: the counts of token `p` multiplied into column `q` of the table block, summed over
    the 64 lanes. -/
theorem pay_apply (x0 : Vec Ideal S4096x4 .i32) (x1 : Vec Ideal S64x512 .bf16) (p : Fin 4096) (q : Fin 512) :
    k0_pay1 (F := Ideal) x0 x1 (ix2 p q) = ∑ v : Fin 64, count x0 p v * x1 (ix2 v q) := by
  unfold k0_pay1
  dsimp only
  refine (Ideal.matmul_constant_zero_apply _ none _ _ (ix2 p q)).trans ?_
  refine (Equiv.sum_comp lanes.symm _).symm.trans ?_
  refine Finset.sum_congr rfl fun v _ => ?_
  rw [lhsIdx_eq p q v, rhsIdx_eq p q v, shapeCast_self x1, shapeCast_self x0]
  refine congrArg (· * x1 (ix2 v q)) ?_
  simp only [truncf_apply, addf_apply, broadcast_apply]
  rw [onehot_apply x0 0 0 rfl, onehot_apply x0 1 1 rfl, onehot_apply x0 2 2 rfl, onehot_apply x0 3 3 rfl]
  show Ideal.ofBits .f32 0x00000000#32 + _ + _ + _ + _ = _
  rw [Ideal.ofBits_zero_f32]
  rfl

end Cert.KernelIdeal.PayValue

end
-- ==== Proof.CountLaw.lean ====
/-
  The law that joins the two programs, on the extended reals.

  A token carries four table-row numbers `r 0 … r 3`. One program counts, for every row `v` of the table, how many of
  the four numbers equal `v` (a sum of four zero-or-one indicators onto a zero start) and multiplies that count into
  the table's column, summing over all rows `v`; the other adds up the four selected entries. The two agree for ANY
  extended-real column `t`, infinite entries included: a count is a sum of NON-NEGATIVE terms, and multiplication
  distributes over a sum of non-negative extended reals (which it does not over sums of mixed sign), so no finiteness
  of `t` is used.
-/
import Mathlib.Data.EReal.Operations
import Mathlib.Algebra.BigOperators.Fin

open scoped BigOperators

namespace Cert.CountLaw

/-- The indicator of `v = a` as an extended real. -/
noncomputable def ind {n : Nat} (a v : Fin n) : EReal := if v = a then 1 else 0

theorem ind_nonneg {n : Nat} (a v : Fin n) : 0 ≤ ind a v := by
  unfold ind; split
  · exact zero_le_one
  · exact le_refl _

/-- Summed against a column, an indicator selects one entry. -/
theorem sum_ind_mul {n : Nat} (a : Fin n) (t : Fin n → EReal) : ∑ v : Fin n, ind a v * t v = t a := by
  unfold ind
  rw [Finset.sum_eq_single a]
  · rw [if_pos rfl, one_mul]
  · intro b _ hb; rw [if_neg hb, zero_mul]
  · intro h; exact absurd (Finset.mem_univ a) h

/-- A count of four indicators onto a zero start, times an entry, is the four products added. -/
theorem count_mul {n : Nat} (r : Fin 4 → Fin n) (v : Fin n) (x : EReal) :
    ((((0 + ind (r 0) v) + ind (r 1) v) + ind (r 2) v) + ind (r 3) v) * x
      = ind (r 0) v * x + ind (r 1) v * x + ind (r 2) v * x + ind (r 3) v * x := by
  have h0 := ind_nonneg (r 0) v
  have h1 := ind_nonneg (r 1) v
  have h2 := ind_nonneg (r 2) v
  have h3 := ind_nonneg (r 3) v
  rw [zero_add,
    EReal.right_distrib_of_nonneg (add_nonneg (add_nonneg h0 h1) h2) h3,
    EReal.right_distrib_of_nonneg (add_nonneg h0 h1) h2,
    EReal.right_distrib_of_nonneg h0 h1]

/-- THE LAW: the counts multiplied into the column and summed over all rows are the zero start plus the four selected
    entries. -/
theorem count_sum {n : Nat} (r : Fin 4 → Fin n) (t : Fin n → EReal) :
    ∑ v : Fin n, ((((0 + ind (r 0) v) + ind (r 1) v) + ind (r 2) v) + ind (r 3) v) * t v
      = 0 + ∑ k : Fin 4, t (r k) := by
  simp only [count_mul]
  rw [Finset.sum_add_distrib, Finset.sum_add_distrib, Finset.sum_add_distrib,
    sum_ind_mul, sum_ind_mul, sum_ind_mul, sum_ind_mul, Fin.sum_univ_four, zero_add]

end Cert.CountLaw
-- ==== Proof.KernelBag.lean ====
/-
  The stored block is a bag sum.

  A word `w` in [0, 64) equals the lane number `v` exactly when `v` is the row `w` names, so each of the count's four
  indicators is the indicator of a named row, and the counts-times-column sum over the 64 lanes is, by the counting
  law, the zero start plus the four named rows' entries in that column.
-/
import proofs.«411611_j51067161149885_1_alg».proof.Proof.KernelPayload
import proofs.«411611_j51067161149885_1_alg».proof.Proof.CountLaw
import proofs.«411611_j51067161149885_1_alg».proof.Proof.BagSum
import Idealize.ShloMosaic.Lib.StableHlo.Predicate

noncomputable section

open scoped BigOperators

namespace Cert.KernelIdeal.PayValue

open Cert.KernelIdeal Cert.KernelIdeal.Gen Idealize.ShloMosaic Idealize.ShloMosaic.ValueIdx
open Cert.BagSum Cert.CountLaw

/-- For a word in range, "the word is lane `v`" is "`v` is the row the word names". -/
theorem onehot_ind (w : BitVec 32) (h0 : 0 ≤ w.toInt) (h1 : w.toInt < 64) (v : Fin 64) :
    (if w = BitVec.ofNat 32 v.val then (1 : EReal) else 0) = ind (row w) v := by
  unfold ind
  have hv : (BitVec.ofNat 32 v.val).toInt = (v.val : Int) :=
    StableHlo.Predicate.toInt_ofNat_small v.val (by have := v.isLt; omega)
  have hrw : ((row w).val : Int) = w.toInt := row_val h0 h1
  by_cases h : w = BitVec.ofNat 32 v.val
  · rw [if_pos h, if_pos]
    apply Fin.ext
    have e : w.toInt = (v.val : Int) := by rw [h]; exact hv
    omega
  · rw [if_neg h, if_neg]
    intro hv'
    apply h
    apply BitVec.eq_of_toInt_eq
    rw [hv, hv']
    exact hrw.symm

/-- THE STORED BLOCK at `(p, q)`, for a token whose four words are in range: zero plus the four named rows' entries in
    column `q` of the table block. -/
theorem pay_bag (x0 : Vec Ideal S4096x4 .i32) (x1 : Vec Ideal S64x512 .bf16) (p : Fin 4096) (q : Fin 512)
    (hr : ∀ k : Fin 4, 0 ≤ (x0 (ix2 p k)).toInt ∧ (x0 (ix2 p k)).toInt < 64) :
    k0_pay1 (F := Ideal) x0 x1 (ix2 p q) = 0 + ∑ k : Fin 4, x1 (ix2 (row (x0 (ix2 p k))) q) := by
  rw [pay_apply]
  refine (Finset.sum_congr rfl fun v _ => ?_).trans
    (count_sum (fun k => row (x0 (ix2 p k))) (fun v => x1 (ix2 v q)))
  show count x0 p v * x1 (ix2 v q)
    = ((((0 + ind (row (x0 (ix2 p (0 : Fin 4)))) v) + ind (row (x0 (ix2 p (1 : Fin 4)))) v)
        + ind (row (x0 (ix2 p (2 : Fin 4)))) v) + ind (row (x0 (ix2 p (3 : Fin 4)))) v) * x1 (ix2 v q)
  unfold count
  rw [onehot_ind _ (hr 0).1 (hr 0).2 v, onehot_ind _ (hr 1).1 (hr 1).2 v, onehot_ind _ (hr 2).1 (hr 2).2 v,
    onehot_ind _ (hr 3).1 (hr 3).2 v]

end Cert.KernelIdeal.PayValue

end
-- ==== Proof.KernelBlocks.lean ====
/-
  From the blocks the kernel writes back to the whole array it leaves.

  The grid has 16 points; point `t` works on tokens `4096 t … 4096 t + 4095`: it reads those rows of the flattened
  index words and the whole table, and writes those rows of the 65536 × 512 result. What it writes at row
  `4096 t + p`, column `q` is the bag sum of that token's four words over the table, so every point's block is a
  block of ONE function of the two arrays the region finds, and since the 16 blocks tile the result array, the array
  ends at that function.
-/
import proofs.«411611_j51067161149885_1_alg».proof.Proof.Gen.KernelIdeal.Frame
import proofs.«411611_j51067161149885_1_alg».proof.Proof.KernelBag
import Idealize.ShloMosaic.Lib.Pipeline.Value

set_option maxRecDepth 16384

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.BagSum Cert.KernelIdeal.PayValue
open Idealize.ShloMosaic.Pipeline (Dat)

variable (m : (ℓ : Loc nD τ sig) → Buf (Elt Ideal) ℓ)

/-- The flattened index words as the region finds them: one row of four words per token. -/
abbrev wordsArr (c : Dev nD) : Vec Ideal S65536x4 .i32 := V m c main_v0
/-- The table as the region finds it. -/
abbrev tableArr (c : Dev nD) : Vec Ideal S64x512 .bf16 := V m c main_v4
/-- The 4096 tokens' words point `t` reads. -/
abbrev wordsBlk (c : Dev nD) (t : Fin cfg0.N) : Vec Ideal S4096x4 .i32 := iblk m c 0 t
/-- The table block point `t` reads: all of it. -/
abbrev tableBlk (c : Dev nD) (t : Fin cfg0.N) : Vec Ideal S64x512 .bf16 := iblk m c 1 t

/-- What the result array holds at token `n`, column `d`: the bag sum of the token's row of words. -/
def rowsOut (P : S65536x4.Idx → BitVec 32) (Tz : S64x512.Idx → EReal) : S65536x512.Idx → EReal :=
  fun i => 0 + ∑ k : Fin 4, Tz (ix2 (row (P (ix2 (i 0) k))) (i 1))

theorem hz : (![0, 0] : Fin 2 → Nat) = fun _ => 0 := funext fun a => by fin_cases a <;> rfl

theorem hN : cfg0.N = 16 := N_0

/-- The printed index maps over the grid: the words' and the result's blocks move with the point along the rows, the
    table's block is fixed. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block is row `4096 t + p` of the array. -/
def rowAt (t : Fin cfg0.N) (p : Fin 4096) : Fin 65536 :=
  ⟨t.val * 4096 + p.val, by have := t.isLt; have := hN; have := p.isLt; omega⟩

/-- Point `t`'s block of words, read at `(p, k)`. -/
theorem wordsBlk_apply (c : Dev nD) (t : Fin cfg0.N) (p : Fin 4096) (k : Fin 4) :
    wordsBlk m c t (ix2 p k) = wordsArr m c (ix2 (rowAt t p) k) := by
  obtain ⟨e0, e1, -, -, -, -⟩ := idx_facts t
  show V m c main_v0 (((cfg0.win 0).blk t).view.emb (ix2 p k)) = V m c main_v0 (ix2 (rowAt t p) k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 4 + 1 * k.val = k.val; omega

/-- Point `t`'s table block is the table. -/
theorem tableBlk_apply (c : Dev nD) (t : Fin cfg0.N) (v : Fin 64) (q : Fin 512) :
    tableBlk m c t (ix2 v q) = tableArr m c (ix2 v q) := by
  obtain ⟨-, -, e2, e3, -, -⟩ := idx_facts t
  show V m c main_v4 (((cfg0.win 1).blk t).view.emb (ix2 v q)) = V m c main_v4 (ix2 v q)
  refine congrArg _ (funext fun a => Fin.ext ?_)
  match a with
  | ⟨0, _⟩ => show win0_1.index t (0 : Fin 2) * 64 + 1 * v.val = v.val; omega
  | ⟨1, _⟩ => show win0_1.index t (1 : Fin 2) * 512 + 1 * q.val = q.val; omega

/-- WHAT POINT `t` WRITES BACK is its block of `rowsOut` of the words and the table the region finds, when every word
    is in range. -/
theorem flushed_eq (c : Dev nD) (t : Fin cfg0.N)
    (hr : ∀ i, 0 ≤ (wordsArr m c i).toInt ∧ (wordsArr m c i).toInt < 64) :
    (dats m 0 c).flushed 2 t
      = ((cfg0.win 2).blk t).view.read (Elt Ideal) (rowsOut (wordsArr m c) (tableArr m c)) := by
  show (cfg0.win 2).cut (grid0.coords t) ((dats m 0 c).after 2 t) = _
  rw [after0_2]
  unfold out0_2
  rw [View.canon_unit_zero hz]
  simp only [View.ld_unit_zero (S := S4096x4) hz, View.ld_unit_zero (S := S64x512) hz]
  obtain ⟨-, -, -, -, e4, e5⟩ := idx_facts t
  funext j
  obtain ⟨p, q, rfl⟩ : ∃ (p : Fin 4096) (q : Fin 512), j = ix2 p q := ⟨j 0, j 1, eq_ix2 j⟩
  have hemb : ((cfg0.win 2).blk t).view.emb (ix2 p q) = ix2 (rowAt t p) q := by
    funext a; apply Fin.ext
    match a with
    | ⟨0, _⟩ => show win0_2.index t (0 : Fin 2) * 4096 + 1 * p.val = t.val * 4096 + p.val; omega
    | ⟨1, _⟩ => show win0_2.index t (1 : Fin 2) * 512 + 1 * q.val = q.val; omega
  show k0_pay1 (F := Ideal) (wordsBlk m c t) (tableBlk m c t) (ix2 p q)
    = rowsOut (wordsArr m c) (tableArr m c) (((cfg0.win 2).blk t).view.emb (ix2 p q))
  rw [hemb]
  refine (pay_bag (wordsBlk m c t) (tableBlk m c t) p q (fun k => ?_)).trans ?_
  · rw [wordsBlk_apply]; exact hr _
  · unfold rowsOut
    refine congrArg (0 + ·) (Finset.sum_congr rfl fun k _ => ?_)
    rw [tableBlk_apply, wordsBlk_apply]

/-- An index of the result array is in point `t`'s block iff each coordinate is in the block's range on its axis. -/
theorem mem_blk (t : Fin cfg0.N) (i : S65536x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v5).slice (win0_2.rect t)).set ↔ _
  rw [View.set_slice_whole, Rect.mem_set_unit]
  exact Iff.rfl

/-- Every index of the result array is in the block of the point that works on its token. -/
theorem cover (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  have hN' := hN
  refine ⟨⟨(i 0).val / 4096, by rw [hN']; omega⟩, flush0_2 _, ?_⟩
  rw [mem_blk]
  obtain ⟨-, -, -, -, e4, e5⟩ := idx_facts ⟨(i 0).val / 4096, by rw [hN']; omega⟩
  intro a
  match a with
  | ⟨0, _⟩ =>
    show win0_2.index _ (0 : Fin 2) * 4096 ≤ (i 0).val ∧ (i 0).val < win0_2.index _ (0 : Fin 2) * 4096 + 4096
    rw [e4]
    show (i 0).val / 4096 * 4096 ≤ (i 0).val ∧ (i 0).val < (i 0).val / 4096 * 4096 + 4096
    omega
  | ⟨1, _⟩ =>
    show win0_2.index _ (1 : Fin 2) * 512 ≤ (i 1).val ∧ (i 1).val < win0_2.index _ (1 : Fin 2) * 512 + 512
    rw [e5]
    omega

/-- THE RESULT ARRAY after the region: `rowsOut` of the words and the table the region finds. -/
theorem final (c : Dev nD) (hr : ∀ i, 0 ≤ (wordsArr m c i).toInt ∧ (wordsArr m c i).toInt < 64) :
    (dats m 0 c).arrAt 2 cfg0.N = rowsOut (wordsArr m c) (tableArr m c) :=
  (dats m 0 c).arrAt_eq_of_cover 2 (rowsOut (wordsArr m c) (tableArr m c))
    (fun t _ => flushed_eq m c t hr) cover

end Cert.KernelIdeal.BlockValue

end
-- ==== Proof.KernelRun.lean ====
/-
  The kernel program's run, with its result named.

  Around the region the program only re-lays arrays: before it, the [32, 2048, 4] index words are flattened to one row
  of four per token (and the table gets its row 0 zeroed and is narrowed, the identity at the ideal instance); after
  it, the [65536, 512] result is folded back to [32, 2048, 512]. Token `(b, s)` is row `2048 b + s` on both sides, so
  the program's result at `(b, s, d)` is the bag sum of the words at `(b, s, ·)` over the table the region finds.
-/
import proofs.«411611_j51067161149885_1_alg».proof.Proof.KernelBlocks
import Idealize.ShloMosaic.Lib.StableHlo.Run

set_option maxRecDepth 16384

noncomputable section

open scoped BigOperators

namespace Cert.KernelIdeal.RunValue

open Cert.KernelIdeal Cert.KernelIdeal.Gen Idealize.ShloMosaic Idealize.ShloMosaic.TcCoe Idealize.SL.Sem
open Idealize.ShloMosaic.ValueIdx Cert.BagSum Cert.KernelIdeal.BlockValue
open Idealize.ShloMosaic.Pipeline (Dat)

variable (m : (ℓ : Loc nD τ sig) → Buf (Elt Ideal) ℓ) (ρ : Dev nD → PrngReg)

/-- The words the region finds are the argument's, flattened. -/
theorem wordsArr_eq (c : Dev nD) :
    wordsArr m c = shapeCast S65536x4 (m ((c : Thread nD τ).loc main_arg0)) shapeCasts_S32x2048x4_S65536x4 := by
  show StableHlo.after hostOps0 (fun b => m (c, b)) (Proc.devRef .tc main_v0) = _
  after_results
  rfl

/-- The program's result buffer after the lines that follow the region: the region's result array, folded back. -/
theorem tail_eq (c : Dev nD) :
    Pipeline.afterTail₀ cfgs (dats m) 0 (V0 m) [hostOps1] c main_v6
      = shapeCast S32x2048x512 ((dats m 0 c).arrAt 2 cfg0.N) shapeCasts_S65536x512_S32x2048x512 := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v5) = (dats m 0 c).arrAt 2 cfg0.N :=
    Pipeline.withArrays_arr spec0 launch0.win.arr_inj c _ _ 2
  rw [e]
  rfl

/-- Token `(b, s)` is row `2048 b + s` of the flattened arrays. -/
def tok (b : Fin 32) (s : Fin 2048) : Fin 65536 := ⟨b.val * 2048 + s.val, by omega⟩

/-- The flattened words at `(2048 b + s, k)` are the words at `(b, s, k)`. -/
theorem flat_words (P : S32x2048x4.Idx → BitVec 32) (h : S32x2048x4.ShapeCasts S65536x4) (b : Fin 32) (s : Fin 2048)
    (k : Fin 4) : shapeCast S65536x4 P h (ix2 (tok b s) k) = P (ix3 b s k) :=
  shapeCast_apply P h (ix2 (tok b s) k) (ix3 b s k) (by
    rw [Shape.rowMajor_val_three, Shape.rowMajor_val_two]
    show (b.val * 2048 + s.val) * 4 + k.val = (b.val * 2048 + s.val) * 4 + k.val
    rfl)

/-- The folded-back result at `(b, s, d)` is the flat result at `(2048 b + s, d)`. -/
theorem fold_out (X : S65536x512.Idx → EReal) (h : S65536x512.ShapeCasts S32x2048x512) (b : Fin 32) (s : Fin 2048)
    (d : Fin 512) : shapeCast S32x2048x512 X h (ix3 b s d) = X (ix2 (tok b s) d) :=
  shapeCast_apply X h (ix3 b s d) (ix2 (tok b s) d) (by
    rw [Shape.rowMajor_val_three, Shape.rowMajor_val_two]
    show (b.val * 2048 + s.val) * 512 + d.val = (b.val * 2048 + s.val) * 512 + d.val
    rfl)

/-- The table the region finds: the argument table with row 0 overwritten by zeros, narrowed. -/
theorem tableArr_eq (c : Dev nD) :
    tableArr m c = truncf .bf16 (Host.scatter scatter_S64x512_S1_S512_0_0_0_0 (fun _ b => b)
      (m ((c : Thread nD τ).loc main_arg1)) (broadcastInDim S1 ![] bcast_S_S1 (constantI S_ 32 0#32))
      (broadcastInDim S512 ![] bcast_S_S512 (constant (F := Ideal) S_ .f32 0x00000000#32))) bitsLt_bf16_f32 := by
  show StableHlo.after hostOps0 (fun b => m (c, b)) (Proc.devRef .tc main_v4) = _
  after_results

/-- THE PROGRAM'S RESULT: the bag sum of the argument's words over the table the region finds, when every word is in
    range. -/
theorem result_eq (c : Dev nD)
    (hr3 : ∀ i, 0 ≤ ((m ((c : Thread nD τ).loc main_arg0) : S32x2048x4.Idx → BitVec 32) i).toInt
      ∧ ((m ((c : Thread nD τ).loc main_arg0) : S32x2048x4.Idx → BitVec 32) i).toInt < 64) :
    Pipeline.afterTail₀ cfgs (dats m) 0 (V0 m) [hostOps1] c main_v6
      = bagSum (m ((c : Thread nD τ).loc main_arg0)) (tableArr m c) := by
  have hr : ∀ i, 0 ≤ (wordsArr m c i).toInt ∧ (wordsArr m c i).toInt < 64 := by
    rw [wordsArr_eq]
    intro i
    exact hr3 _
  rw [tail_eq, final m c hr]
  funext i
  obtain ⟨b, s, d, rfl⟩ : ∃ (b : Fin 32) (s : Fin 2048) (d : Fin 512), i = ix3 b s d := ⟨i 0, i 1, i 2, eq_ix3 i⟩
  rw [fold_out]
  unfold rowsOut bagSum
  refine congrArg (0 + ·) (Finset.sum_congr rfl fun k _ => ?_)
  show tableArr m c (ix2 (row (wordsArr m c (ix2 (tok b s) k))) d)
    = tableArr m c (ix2 (row ((m ((c : Thread nD τ).loc main_arg0) : S32x2048x4.Idx → BitVec 32) (ix3 b s k))) d)
  rw [wordsArr_eq, flat_words]

/-- THE RUN: every weakly fair execution of the program terminates with its result at the bag sum and its arguments
    unchanged, when every index word is in range. -/
theorem run (hr3 : ∀ (c : Dev nD) i, 0 ≤ ((m ((c : Thread nD τ).loc main_arg0) : S32x2048x4.Idx → BitVec 32) i).toInt
      ∧ ((m ((c : Thread nD τ).loc main_arg0) : S32x2048x4.Idx → BitVec 32) i).toInt < 64) :
    θ_run defs (onTc (τ := τ) (main (F := Ideal))) ⟨m, fun _ => 0, ρ⟩ fun r => ∀ c : Dev nD,
      r.2.mem ((c : Thread nD τ).loc main_v6) = bagSum (m ((c : Thread nD τ).loc main_arg0)) (tableArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v6 (Pipeline.mem_restRefs_of main_v6 (by decide) (by decide))).trans (result_eq m c (hr3 c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RunValue

end
-- ==== Proof.lean ====
/-
  A bag-of-rows embedding sum, computed two ways, is one function on the extended reals.

  Inputs: index words `pos_ids : int32[32, 2048, 4]` and a table `emb_table : f32[64, 512]`. Both programs first
  overwrite row 0 of the table with zeros. The reference looks up, for every token `(b, s)`, the four rows its words
  name and adds them onto a zero start. The kernel flattens the tokens to 65536 rows and, 4096 tokens at a time,
  builds for each token the 64 COUNTS "how many of its four words equal lane v" and multiplies the counts into the
  table on the matrix unit from a zero accumulator; then it folds the rows back to `[32, 2048, 512]`.

  The precondition asks that the table's entries be finite and that every index word, read as a signed integer, lie
  in [0, 64), the range of the table's rows. Only the second part is used: for such a word the reference's wrap of
  negative indices and the gather's clamp are the identity, and "the word equals lane v" is "v is the row the word
  names". The two results then agree by the counting law (Proof/CountLaw.lean): a count is a sum of non-negative
  indicators, multiplication distributes over a sum of NON-NEGATIVE extended reals, and summing an indicator against a
  column selects one entry — so `Σ_v count_v · T[v, d] = 0 + Σ_k T[w_k, d]` for any extended-real table, infinite
  entries included. The kernel's narrowings to bf16 are the identity at the ideal instance, its matrix product from a
  zero accumulator the plain sum over the 64 lanes, and both programs' zeroed tables are the same term of the argument.

  The frames of the two kernel programs are the generated ones; the reference has no kernel and its frame is its
  run with the result dropped. Nothing was rewritten between the kernel and its idealization, so `preserves` is
  trivial.
-/
import proofs.«411611_j51067161149885_1_alg».proof.Defs
import proofs.«411611_j51067161149885_1_alg».proof.Proof.Gen.Kernel
import proofs.«411611_j51067161149885_1_alg».proof.Proof.Gen.Kernel.Skeleton
import proofs.«411611_j51067161149885_1_alg».proof.Proof.Gen.Kernel.Launch
import proofs.«411611_j51067161149885_1_alg».proof.Proof.Gen.Kernel.Points
import proofs.«411611_j51067161149885_1_alg».proof.Proof.Gen.Kernel.Frame
import proofs.«411611_j51067161149885_1_alg».proof.Proof.Gen.KernelIdeal
import proofs.«411611_j51067161149885_1_alg».proof.Proof.Gen.KernelIdeal.Skeleton
import proofs.«411611_j51067161149885_1_alg».proof.Proof.Gen.KernelIdeal.Launch
import proofs.«411611_j51067161149885_1_alg».proof.Proof.Gen.KernelIdeal.Points
import proofs.«411611_j51067161149885_1_alg».proof.Proof.Gen.KernelIdeal.Frame
import proofs.«411611_j51067161149885_1_alg».proof.Proof.Gen.ReferenceIdeal
import proofs.«411611_j51067161149885_1_alg».proof.Proof.Gen.ReferenceIdeal.Run
import proofs.«411611_j51067161149885_1_alg».proof.Proof.Gen.ReferenceIdeal.Read
import proofs.«411611_j51067161149885_1_alg».proof.Proof.Gen.Pre_finite_inputs
import proofs.«411611_j51067161149885_1_alg».proof.Proof.IndexRange
import proofs.«411611_j51067161149885_1_alg».proof.Proof.RefValue
import proofs.«411611_j51067161149885_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the bag sum of the argument's index words over the zeroed table. -/
theorem algebraic : Cert.algebraic_KernelIdeal_ReferenceIdeal := by
  intro m ρ m' ρ' hpre hagree
  have hrange : ∀ (c : Dev Cert.KernelIdeal.nD) i,
      0 ≤ ((m ((c : Thread Cert.KernelIdeal.nD Cert.KernelIdeal.τ).loc Cert.KernelIdeal.main_arg0)
        : Cert.KernelIdeal.S32x2048x4.Idx → BitVec 32) i).toInt
      ∧ ((m ((c : Thread Cert.KernelIdeal.nD Cert.KernelIdeal.τ).loc Cert.KernelIdeal.main_arg0)
        : Cert.KernelIdeal.S32x2048x4.Idx → BitVec 32) i).toInt < 64 :=
    fun c i => Cert.IndexRange.range_of_pre _ _ (hpre c) i
  refine ⟨fun c => Cert.BagSum.bagSum
      (m ((c : Thread Cert.KernelIdeal.nD Cert.KernelIdeal.τ).loc Cert.KernelIdeal.main_arg0))
      (Cert.KernelIdeal.BlockValue.tableArr m c),
    Cert.KernelIdeal.RunValue.run m ρ hrange, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq,
    Cert.ReferenceIdeal.RefValue.ref_eq_bagSum _ _ (fun i => by rw [(hagree c).1]; exact hrange c i),
    (hagree c).1, (hagree c).2]
  show Cert.BagSum.bagSum _ _ = Cert.BagSum.bagSum _ (Cert.KernelIdeal.BlockValue.tableArr m c)
  rw [Cert.KernelIdeal.RunValue.tableArr_eq]
  rfl

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
